-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S4096x512 : Shape := ⟨2, ![4096, 512]⟩
abbrev S512x256 : Shape := ⟨2, ![512, 256]⟩
abbrev S256x512 : Shape := ⟨2, ![256, 512]⟩
abbrev S1024x512 : Shape := ⟨2, ![1024, 512]⟩
abbrev S8192x4096 : Shape := ⟨2, ![8192, 4096]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S512x256 : S_.BroadcastsInDim S512x256 (![] : Fin 0 → Fin S512x256.rank)
  reducesTo_S512x256_S_d0_1 : S512x256.ReducesTo [0, 1] S_
  bcast_S_S256x512 : S_.BroadcastsInDim S256x512 (![] : Fin 0 → Fin S256x512.rank)
  reducesTo_S256x512_S_d0_1 : S256x512.ReducesTo [0, 1] S_
  bcast_S_S1024x512 : S_.BroadcastsInDim S1024x512 (![] : Fin 0 → Fin S1024x512.rank)
  reducesTo_S1024x512_S_d0_1 : S1024x512.ReducesTo [0, 1] S_

variable [Facts]

def fn_part1 {F : FTy → Type} [FloatOps F] (main_arg4 : FVec F S1024x512 .f32) (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  let main_v19 : FVec F S1024x512 .f32 := Host.absf main_arg4
  let main_cst_6 : FVec F S_ .f32 := constant S_ .f32 0x7F800000#32
  let main_v20 : FVec F S1024x512 .f32 := broadcastInDim S1024x512 ![] bcast_S_S1024x512 main_cst_6
  let main_v21 : IVec S1024x512 1 := cmpf .olt main_v19 main_v20
  let main_c_7 : IVec S_ 1 := constantI S_ 1 1#1
  let main_v22 : IVec S_ 1 := (fun x v => Host.reduce IntOp.andi x v reducesTo_S1024x512_S_d0_1 h_S_) main_v21 main_c_7
  let main_v23 : IVec S_ 1 := andi main_v18 main_v22
  main_v23

def fn {F : FTy → Type} [FloatOps F] (main_arg0 : FVec F S8192x512 .f32) (main_arg1 : FVec F S4096x512 .f32) (main_arg2 : FVec F S512x256 .f32) (main_arg3 : FVec F S256x512 .f32) (main_arg4 : FVec F S1024x512 .f32) (main_arg5 : IVec S8192x4096 32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256x512 .f32 := Host.absf main_arg3
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_arg4 main_v13 main_v16
-- ==== Kernel.lean ====
abbrev S8192x512 : Shape := ⟨2, ![8192, 512]⟩
abbrev S4096x512 : Shape := ⟨2, ![4096, 512]⟩
abbrev S512x256 : Shape := ⟨2, ![512, 256]⟩
abbrev S256x512 : Shape := ⟨2, ![256, 512]⟩
abbrev S1024x512 : Shape := ⟨2, ![1024, 512]⟩
abbrev S8192x4096 : Shape := ⟨2, ![8192, 4096]⟩
abbrev S512x4096 : Shape := ⟨2, ![512, 4096]⟩
abbrev S512x1024 : Shape := ⟨2, ![512, 1024]⟩
abbrev S1024x256 : Shape := ⟨2, ![1024, 256]⟩
abbrev S512x512 : Shape := ⟨2, ![512, 512]⟩
abbrev S8192x1024 : Shape := ⟨2, ![8192, 1024]⟩
abbrev S256x4096 : Shape := ⟨2, ![256, 4096]⟩
abbrev S256x1024 : Shape := ⟨2, ![256, 1024]⟩
abbrev S8192x1x1024 : Shape := ⟨3, ![8192, 1, 1024]⟩

abbrev nBuf : Space → Nat
  | .hbm => 14
  | .vmem => 18
  | .smem => 0
  | _ => 0

abbrev bufTy : (tb : Table) → Fin (tcTables nBuf tb) → BufTy
  | .hbm, ⟨0, _⟩ => ⟨S8192x512, .f32⟩
  | .hbm, ⟨1, _⟩ => ⟨S4096x512, .f32⟩
  | .hbm, ⟨2, _⟩ => ⟨S512x256, .f32⟩
  | .hbm, ⟨3, _⟩ => ⟨S256x512, .f32⟩
  | .hbm, ⟨4, _⟩ => ⟨S1024x512, .f32⟩
  | .hbm, ⟨5, _⟩ => ⟨S8192x4096, .i32⟩
  | .hbm, ⟨6, _⟩ => ⟨S4096x512, .bf16⟩
  | .hbm, ⟨7, _⟩ => ⟨S512x4096, .bf16⟩
  | .hbm, ⟨8, _⟩ => ⟨S512x512, .f32⟩
  | .hbm, ⟨9, _⟩ => ⟨S512x512, .bf16⟩
  | .hbm, ⟨10, _⟩ => ⟨S512x512, .f32⟩
  | .hbm, ⟨11, _⟩ => ⟨S512x512, .bf16⟩
  | .hbm, ⟨12, _⟩ => ⟨S8192x1024, .f32⟩
  | .hbm, ⟨13, _⟩ => ⟨S8192x1x1024, .f32⟩
  | .local _ .vmem, ⟨0, _⟩ => ⟨S1024x512, .f32⟩
  | .local _ .vmem, ⟨1, _⟩ => ⟨S1024x512, .f32⟩
  | .local _ .vmem, ⟨2, _⟩ => ⟨S512x256, .f32⟩
  | .local _ .vmem, ⟨3, _⟩ => ⟨S256x512, .f32⟩
  | .local _ .vmem, ⟨4, _⟩ => ⟨S1024x512, .bf16⟩
  | .local _ .vmem, ⟨5, _⟩ => ⟨S1024x512, .bf16⟩
  | .local _ .vmem, ⟨6, _⟩ => ⟨S512x1024, .bf16⟩
  | .local _ .vmem, ⟨7, _⟩ => ⟨S512x1024, .bf16⟩
  | .local _ .vmem, ⟨8, _⟩ => ⟨S256x512, .f32⟩
  | .local _ .vmem, ⟨9, _⟩ => ⟨S256x512, .f32⟩
  | .local _ .vmem, ⟨10, _⟩ => ⟨S256x4096, .i32⟩
  | .local _ .vmem, ⟨11, _⟩ => ⟨S256x4096, .i32⟩
  | .local _ .vmem, ⟨12, _⟩ => ⟨S4096x512, .bf16⟩
  | .local _ .vmem, ⟨13, _⟩ => ⟨S512x4096, .bf16⟩
  | .local _ .vmem, ⟨14, _⟩ => ⟨S512x512, .bf16⟩
  | .local _ .vmem, ⟨15, _⟩ => ⟨S512x512, .bf16⟩
  | .local _ .vmem, ⟨16, _⟩ => ⟨S256x1024, .f32⟩
  | .local _ .vmem, ⟨17, _⟩ => ⟨S256x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x4096 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S4096x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x4096 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x512 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x512 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S256x512_S256x512_0_0 : ∀ a, (![0, 0] : Fin 2 → Nat) a + S256x512.size a ≤ S256x512.size a
  h_S256x512 : 0 < S256x512.numel
  packedbf16_S1024x512_S1024x512_0_0 : (Rect.unit (s := S1024x512) ![0, 0] S1024x512.size inb_S1024x512_S1024x512_0_0).PackedRows (EltTy.packing .bf16)
  transposes_S1024x512_p1_0_S512x1024 : S1024x512.Transposes [1, 0] S512x1024
  inb_S512x1024_S512x1024_0_0 : ∀ a, (![0, 0] : Fin 2 → Nat) a + S512x1024.size a ≤ S512x1024.size a
  h_S512x1024 : 0 < S512x1024.numel
  packedbf16_S512x1024_S512x1024_0_0 : (Rect.unit (s := S512x1024) ![0, 0] S512x1024.size inb_S512x1024_S512x1024_0_0).PackedRows (EltTy.packing .bf16)
  slices_S1024x512_S512x512_0_0 : S1024x512.Slices ![0, 0] S512x512
  slices_S1024x512_S512x512_512_0 : S1024x512.Slices ![512, 0] S512x512
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S256x4096_S256x4096_0_0 : ∀ a, (![0, 0] : Fin 2 → Nat) a + S256x4096.size a ≤ S256x4096.size a
  h_S256x4096 : 0 < S256x4096.numel
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S256x1024_S256x512_0_0 : ∀ a, (![0, 0] : Fin 2 → Nat) a + S256x512.size a ≤ S256x1024.size a
  inb_S256x1024_S256x512_0_512 : ∀ a, (![0, 512] : Fin 2 → Nat) a + S256x512.size a ≤ S256x1024.size a
  bcast_S8192x1024_S8192x1x1024_0_2 : S8192x1024.BroadcastsInDim S8192x1x1024 (![0, 2] : Fin 2 → Fin S8192x1x1024.rank)
  dot_S1024x512_S512x256_S1024x256_1_0_0_1_n_n_wf : DotDims.WF S1024x512 S512x256 S1024x256 [1] [0] [0] [1] [] []
  dot_S1024x256_S256x512_S1024x512_1_0_0_1_n_n_wf : DotDims.WF S1024x256 S256x512 S1024x512 [1] [0] [0] [1] [] []
  dot_S256x512_S512x4096_S256x4096_1_0_0_1_n_n_wf : DotDims.WF S256x512 S512x4096 S256x4096 [1] [0] [0] [1] [] []
  dot_S256x4096_S4096x512_S256x512_1_0_0_1_n_n_wf : DotDims.WF S256x4096 S4096x512 S256x512 [1] [0] [0] [1] [] []
  dot_S256x512_S512x512_S256x512_1_0_0_1_n_n_wf : DotDims.WF S256x512 S512x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x512.size a
  hwx0_0 : ∀ i : grid0.Coords, EltTy.bits .f32 = 32 ∨ (Rect.block (s := S4096x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .f32 = 32 ∨ (Rect.block (s := S256x512) S256x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S4096x512.size a
  hwx0_3 : ∀ i : grid0.Coords, EltTy.bits .bf16 = 32 ∨ (Rect.block (s := S4096x512) S1024x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S512x4096.size a
  hwx0_4 : ∀ i : grid0.Coords, EltTy.bits .bf16 = 32 ∨ (Rect.block (s := S512x4096) S512x1024.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x512.size a ≤ S8192x512.size a
  hwx1_0 : ∀ i : grid1.Coords, EltTy.bits .f32 = 32 ∨ (Rect.block (s := S8192x512) S256x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x4096.size a ≤ S8192x4096.size a
  hwx1_1 : ∀ i : grid1.Coords, EltTy.bits .i32 = 32 ∨ (Rect.block (s := S8192x4096) S256x4096.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x512.size a ≤ S4096x512.size a
  hwx1_2 : ∀ i : grid1.Coords, EltTy.bits .bf16 = 32 ∨ (Rect.block (s := S4096x512) S4096x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x4096.size a ≤ S512x4096.size a
  hwx1_3 : ∀ i : grid1.Coords, EltTy.bits .bf16 = 32 ∨ (Rect.block (s := S512x4096) S512x4096.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x512.size a ≤ S512x512.size a
  hwx1_4 : ∀ i : grid1.Coords, EltTy.bits .bf16 = 32 ∨ (Rect.block (s := S512x512) S512x512.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x512.size a ≤ S512x512.size a
  hwx1_5 : ∀ i : grid1.Coords, EltTy.bits .bf16 = 32 ∨ (Rect.block (s := S512x512) S512x512.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S256x1024.size a ≤ S8192x1024.size a
  hwx1_6 : ∀ i : grid1.Coords, EltTy.bits .f32 = 32 ∨ (Rect.block (s := S8192x1024) S256x1024.size (cc1_transform_6 i) (hinb1_6 i)).WholeWords (EltTy.packing .f32)

variable [Facts₀]

def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S256x512_S512x4096_S256x4096_1_0_0_1_n_n : DotDims S256x512 S512x4096 S256x4096 where
  lhsContracting := [1]
  rhsContracting := [0]
  lhsNonContracting := [0]
  rhsNonContracting := [1]
  lhsBatch := []
  rhsBatch := []
  wf := dot_S256x512_S512x4096_S256x4096_1_0_0_1_n_n_wf
def dot_S256x4096_S4096x512_S256x512_1_0_0_1_n_n : DotDims S256x4096 S4096x512 S256x512 where
  lhsContracting := [1]
  rhsContracting := [0]
  lhsNonContracting := [0]
  rhsNonContracting := [1]
  lhsBatch := []
  rhsBatch := []
  wf := dot_S256x4096_S4096x512_S256x512_1_0_0_1_n_n_wf
def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf

abbrev win0_0 : Pipeline.Window sig grid0 :=
  Pipeline.Window.ofSpec (Memref.whole main_arg1) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1024x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S256x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S256x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_0) S4096x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0_1) S512x4096.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S512x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4) S512x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v5) S256x1024.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S8192x512 : Shape := ⟨2, ![8192, 512]⟩
abbrev S4096x512 : Shape := ⟨2, ![4096, 512]⟩
abbrev S512x256 : Shape := ⟨2, ![512, 256]⟩
abbrev S256x512 : Shape := ⟨2, ![256, 512]⟩
abbrev S1024x512 : Shape := ⟨2, ![1024, 512]⟩
abbrev S8192x4096 : Shape := ⟨2, ![8192, 4096]⟩
abbrev S4096x256 : Shape := ⟨2, ![4096, 256]⟩
abbrev S_ : Shape := ⟨0, ![]⟩
abbrev S8192x1024 : Shape := ⟨2, ![8192, 1024]⟩
abbrev S8192x1x1024 : Shape := ⟨3, ![8192, 1, 1024]⟩

abbrev nBuf : Space → Nat
  | .hbm => 20
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S4096x512, .f32⟩
  | .hbm, ⟨2, _⟩ => ⟨S512x256, .f32⟩
  | .hbm, ⟨3, _⟩ => ⟨S256x512, .f32⟩
  | .hbm, ⟨4, _⟩ => ⟨S1024x512, .f32⟩
  | .hbm, ⟨5, _⟩ => ⟨S8192x4096, .i32⟩
  | .hbm, ⟨6, _⟩ => ⟨S4096x256, .f32⟩
  | .hbm, ⟨7, _⟩ => ⟨S4096x512, .f32⟩
  | .hbm, ⟨8, _⟩ => ⟨S_, .i32⟩
  | .hbm, ⟨9, _⟩ => ⟨S8192x4096, .i32⟩
  | .hbm, ⟨10, _⟩ => ⟨S8192x4096, .i1⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S8192x512, .f32⟩
  | .hbm, ⟨15, _⟩ => ⟨S8192x512, .f32⟩
  | .hbm, ⟨16, _⟩ => ⟨S8192x1024, .f32⟩
  | .hbm, ⟨17, _⟩ => ⟨S8192x512, .f32⟩
  | .hbm, ⟨18, _⟩ => ⟨S8192x1024, .f32⟩
  | .hbm, ⟨19, _⟩ => ⟨S8192x1x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]

class Facts₀ : Prop where
  bcast_S_S8192x4096 : S_.BroadcastsInDim S8192x4096 (![] : Fin 0 → Fin S8192x4096.rank)
  concatenates_S8192x512_S8192x512_S8192x1024_d1 : Shape.Concatenates [S8192x512, S8192x512] S8192x1024 1
  bcast_S8192x1024_S8192x1x1024_0_2 : S8192x1024.BroadcastsInDim S8192x1x1024 (![0, 2] : Fin 2 → Fin S8192x1x1024.rank)
  dot_S4096x512_S512x256_S4096x256_1_0_0_1_n_n_wf : DotDims.WF S4096x512 S512x256 S4096x256 [1] [0] [0] [1] [] []
  dot_S4096x256_S256x512_S4096x512_1_0_0_1_n_n_wf : DotDims.WF S4096x256 S256x512 S4096x512 [1] [0] [0] [1] [] []
  dot_S8192x512_S4096x512_S8192x4096_1_1_0_0_n_n_wf : DotDims.WF S8192x512 S4096x512 S8192x4096 [1] [1] [0] [0] [] []
  dot_S8192x4096_S4096x512_S8192x512_1_0_0_1_n_n_wf : DotDims.WF S8192x4096 S4096x512 S8192x512 [1] [0] [0] [1] [] []
  dot_S8192x1024_S1024x512_S8192x512_1_0_0_1_n_n_wf : DotDims.WF S8192x1024 S1024x512 S8192x512 [1] [0] [0] [1] [] []

variable [Facts₀]

def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf
def dot_S4096x256_S256x512_S4096x512_1_0_0_1_n_n : DotDims S4096x256 S256x512 S4096x512 where
  lhsContracting := [1]
  rhsContracting := [0]
  lhsNonContracting := [0]
  rhsNonContracting := [1]
  lhsBatch := []
  rhsBatch := []
  wf := dot_S4096x256_S256x512_S4096x512_1_0_0_1_n_n_wf
def dot_S8192x512_S4096x512_S8192x4096_1_1_0_0_n_n : DotDims S8192x512 S4096x512 S8192x4096 where
  lhsContracting := [1]
  rhsContracting := [1]
  lhsNonContracting := [0]
  rhsNonContracting := [0]
  lhsBatch := []
  rhsBatch := []
  wf := dot_S8192x512_S4096x512_S8192x4096_1_1_0_0_n_n_wf
def dot_S8192x4096_S4096x512_S8192x512_1_0_0_1_n_n : DotDims S8192x4096 S4096x512 S8192x512 where
  lhsContracting := [1]
  rhsContracting := [0]
  lhsNonContracting := [0]
  rhsNonContracting := [1]
  lhsBatch := []
  rhsBatch := []
  wf := dot_S8192x4096_S4096x512_S8192x512_1_0_0_1_n_n_wf
def dot_S8192x1024_S1024x512_S8192x512_1_0_0_1_n_n : DotDims S8192x1024 S1024x512 S8192x512 where
  lhsContracting := [1]
  rhsContracting := [0]
  lhsNonContracting := [0]
  rhsNonContracting := [1]
  lhsBatch := []
  rhsBatch := []
  wf := dot_S8192x1024_S1024x512_S8192x512_1_0_0_1_n_n_wf

class Facts : Prop extends Facts₀ where

variable [Facts]
-- ==== Proof.LibPlainProduct.lean ====
/- The plain product of an M×K array by a K×N array on the extended reals, accumulated into the all-zero array and
   read at an entry (r, c): the sum over the contracted coordinate k of A (r, k) · B (k, c). A general fact, about no
   particular program. -/
import Idealize.ShloMosaic.PureOps.Ideal.Laws
import Idealize.ShloMosaic.Lib.ValueIdx
import Idealize.ShloMosaic.Lib.StackMember

noncomputable section

namespace Cert.Lib.PlainProduct

open Idealize.ShloMosaic Idealize.ShloMosaic.ValueIdx

/-- Into the zero accumulator a matrix product is the host's product with the same dimension record (both are the sum
    of the operands' products over the contraction index), and the host's plain product at an entry is the sum over
    the contracted coordinate. -/
theorem matmul_zero_plain_apply {M K N : Nat} {φ₁ φ₂ : FTy} (A : FVec Ideal ⟨2, ![M, K]⟩ φ₁) (B : FVec Ideal ⟨2, ![K, N]⟩ φ₂)
    (r : Fin M) (c : Fin N) :
    matmul (F := Ideal) (DotDims.plain M K N) none A B (constant ⟨2, ![M, N]⟩ .f32 0x00000000#32) (ix2 r c)
      = ∑ k : Fin K, A (ix2 r k) * B (ix2 k c) := by
  have h : matmul (F := Ideal) (DotDims.plain M K N) none A B (constant ⟨2, ![M, N]⟩ .f32 0x00000000#32)
      = Host.dotGeneral (F := Ideal) (DotDims.plain M K N) none A B := by
    funext j
    simp only [matmul, Host.dotGeneral]
    rw [Ideal.matmul_constant_zero_apply, Ideal.dotGeneral_apply]
  rw [h]
  exact StackMember.dotGeneral_plain_apply none A B r c

end Cert.Lib.PlainProduct

end
-- ==== Proof.LibLayoutAt.lean ====
/- Four layout operations read at an index written by its coordinates — general facts, about no particular program:
   the transpose of a matrix, a band of consecutive rows cut out of a matrix, two matrices of equal height joined side
   by side, and a matrix given a new unit axis in the middle. -/
import Idealize.ShloMosaic.Lib.ValueIdx
import Idealize.ShloMosaic.Lib.Pipeline.Value

namespace Cert.Lib.LayoutAt

open Idealize.ShloMosaic Idealize.ShloMosaic.ValueIdx

variable {α : Type}

/-- Entry (c, n) of the transpose is entry (n, c) of the matrix. -/
theorem transpose_at {N C : Nat} (x : (⟨2, ![N, C]⟩ : Shape).Idx → α)
    (h : (⟨2, ![N, C]⟩ : Shape).Transposes ([1, 0] : List (Fin 2)) ⟨2, ![C, N]⟩) (c : Fin C) (n : Fin N) :
    transpose ⟨2, ![C, N]⟩ ([1, 0] : List (Fin 2)) x h (ix2 c n) = x (ix2 n c) :=
  transpose_apply _ x h _ (ix2 n c) (fun b => match b with
    | ⟨0, _⟩ => rfl
    | ⟨1, _⟩ => rfl)

/-- Rows k … k + R − 1 of a matrix of R' rows, cut out as a matrix of R rows: entry (r, c) is entry (k + r, c). -/
theorem rowBand_at {R' R C k : Nat} (x : (⟨2, ![R', C]⟩ : Shape).Idx → α)
    (h : (⟨2, ![R', C]⟩ : Shape).Slices ![k, 0] ⟨2, ![R, C]⟩) (r : Fin R) (c : Fin C) (hr : k + r.val < R') :
    extractStridedSlice ⟨2, ![R, C]⟩ ![k, 0] x h (ix2 r c) = x (ix2 ⟨k + r.val, hr⟩ c) :=
  extractStridedSlice_apply _ x h _ _ (fun a => match a with
    | ⟨0, _⟩ => rfl
    | ⟨1, _⟩ => by show c.val = 0 + c.val; omega)

/-- Two matrices of N rows joined side by side, read in the LEFT part: the first matrix there. -/
theorem sideBySide_left {N A B W : Nat} (x : (⟨2, ![N, A]⟩ : Shape).Idx → α) (y : (⟨2, ![N, B]⟩ : Shape).Idx → α)
    (h : Shape.Concatenates [⟨2, ![N, A]⟩, ⟨2, ![N, B]⟩] ⟨2, ![N, W]⟩ 1) (n : Fin N) (c : Fin W) (hc : c.val < A) :
    concatenate ⟨2, ![N, W]⟩ 1 [⟨⟨2, ![N, A]⟩, x⟩, ⟨⟨2, ![N, B]⟩, y⟩] h (ix2 n c) = x (ix2 n ⟨c.val, hc⟩) :=
  concatenate_pair_apply_left 1 x y h (ix2 n c) rfl (ix2 n ⟨c.val, hc⟩) (fun b => match b with
    | ⟨0, _⟩ => rfl
    | ⟨1, _⟩ => rfl)

/-- Two matrices of N rows joined side by side, read in the RIGHT part: the second matrix, the first one's width less. -/
theorem sideBySide_right {N A B W : Nat} (x : (⟨2, ![N, A]⟩ : Shape).Idx → α) (y : (⟨2, ![N, B]⟩ : Shape).Idx → α)
    (h : Shape.Concatenates [⟨2, ![N, A]⟩, ⟨2, ![N, B]⟩] ⟨2, ![N, W]⟩ 1) (n : Fin N) (c : Fin W) (hc : A ≤ c.val)
    (hB : c.val - A < B) :
    concatenate ⟨2, ![N, W]⟩ 1 [⟨⟨2, ![N, A]⟩, x⟩, ⟨⟨2, ![N, B]⟩, y⟩] h (ix2 n c) = y (ix2 n ⟨c.val - A, hB⟩) :=
  concatenate_pair_apply_right 1 x y h (ix2 n c) rfl rfl (ix2 n ⟨c.val - A, hB⟩)
    (fun b hb => match b, hb with
      | ⟨0, _⟩, _ => rfl
      | ⟨1, _⟩, hb => absurd rfl hb)
    (by show c.val - A + A = c.val; omega)

/-- A matrix given a new unit axis in the middle: entry (n, z, c) is entry (n, c). -/
theorem midUnit_at {N C : Nat} (hN : N ≠ 1) (hC : C ≠ 1) (x : (⟨2, ![N, C]⟩ : Shape).Idx → α)
    (h : (⟨2, ![N, C]⟩ : Shape).BroadcastsInDim ⟨3, ![N, 1, C]⟩ (![0, 2] : Fin 2 → Fin 3)) (n : Fin N) (z : Fin 1) (c : Fin C) :
    broadcastInDim ⟨3, ![N, 1, C]⟩ (![0, 2] : Fin 2 → Fin 3) h x (ix3 n z c) = x (ix2 n c) :=
  broadcastInDim_apply _ h x _ (ix2 n c) (fun a => match a with
    | ⟨0, _⟩ => by show n.val = if N = 1 then 0 else n.val; rw [if_neg hN]
    | ⟨1, _⟩ => by show c.val = if C = 1 then 0 else c.val; rw [if_neg hC])

end Cert.Lib.LayoutAt
-- ==== Proof.BodyFeat.lean ====
/- The first kernel's body, as a function of the blocks it loads, read at an entry.

   From a block of 1024 feature rows and the two whole weight matrices the body forms (rows · W₁) · W₂ — two products into
   zero accumulators, the narrowing of the operands and of the results to a shorter float format being the identity on
   the extended reals — and stores the block twice: as it is, and transposed. Entry (r, j) of the first store is the
   double sum over the two contracted axes; entry (j, r) of the second is the same number. -/
import proofs.«110785_j15702400434467_1_alg».proof.Proof.Gen.KernelIdeal.Skeleton
import proofs.«110785_j15702400434467_1_alg».proof.Proof.LibPlainProduct
import proofs.«110785_j15702400434467_1_alg».proof.Proof.LibLayoutAt

noncomputable section

namespace Cert.KernelIdeal.FeatBody

open Cert.KernelIdeal Cert.KernelIdeal.Gen Idealize.ShloMosaic Idealize.ShloMosaic.ValueIdx
open Cert.Lib.PlainProduct Cert.Lib.LayoutAt

variable (x0 : Vec Ideal S1024x512 .f32) (x1 : Vec Ideal S512x256 .f32) (x2 : Vec Ideal S256x512 .f32)

/-- The stored block is the product of the product, both into zero accumulators, over the plain dimension records. -/
theorem pay1_eq :
    k0_pay1 x0 x1 x2 = matmul (F := Ideal) (φ₁ := .bf16) (φ₂ := .bf16) (DotDims.plain 1024 256 512) none
      (matmul (F := Ideal) (φ₁ := .bf16) (φ₂ := .bf16) (DotDims.plain 1024 512 256) none x0 x1
        (constant ⟨2, ![1024, 256]⟩ .f32 0x00000000#32)) x2
      (constant ⟨2, ![1024, 512]⟩ .f32 0x00000000#32) := rfl

/-- Entry (r, j) of the block of transformed features: Σ_b (Σ_a x0 (r, a) · x1 (a, b)) · x2 (b, j). -/
theorem pay1_at (r : Fin 1024) (j : Fin 512) :
    k0_pay1 x0 x1 x2 (ix2 r j) = ∑ b : Fin 256, (∑ a : Fin 512, x0 (ix2 r a) * x1 (ix2 a b)) * x2 (ix2 b j) := by
  rw [pay1_eq, matmul_zero_plain_apply]
  refine Finset.sum_congr rfl fun b _ => ?_
  rw [matmul_zero_plain_apply]

/-- Entry (j, r) of the transposed block is entry (r, j) of the block. -/
theorem pay2_at (j : Fin 512) (r : Fin 1024) :
    k0_pay2 x0 x1 x2 (ix2 j r) = k0_pay1 x0 x1 x2 (ix2 r j) :=
  transpose_at (N := 1024) (C := 512) (k0_pay1 x0 x1 x2) transposes_S1024x512_p1_0_S512x1024 j r

end Cert.KernelIdeal.FeatBody

end
-- ==== Proof.Spec.lean ====
/- What both programs compute, written once, row by row, on the extended reals.

   The transformed feature matrix is H = (F · W₁) · W₂, entry (d, j) a double sum. For one row x of the entity features
   with its row m of mask words: the masked score against feature row d is the inner product ⟨x, H d ·⟩ where m d ≠ 0
   and 0 elsewhere; the contribution is the score vector times H; the first 512 result columns are x plus the
   contribution; the last 512 are x times the upper half of the reduction matrix plus the contribution times its
   lower half. Two small laws are proved beside the definitions: a product with a mask bit read as 0 or 1 is the
   selection between the factor and 0 (true at the infinities too, since 0 · ±∞ = 0 on the extended reals), and a
   sum over 1024 positions is the sum over the first 512 plus the sum over the last 512. -/
import Idealize.ShloMosaic.PureOps.Ideal
import Idealize.ShloMosaic.Lib.ValueIdx
import Mathlib.Algebra.BigOperators.Fin

noncomputable section

namespace Cert.Spec

open Idealize.ShloMosaic Idealize.ShloMosaic.ValueIdx

/-- Entry (d, j) of the transformed feature matrix (F · W₁) · W₂. -/
def feat (df : (⟨2, ![4096, 512]⟩ : Shape).Idx → EReal) (dt : (⟨2, ![512, 256]⟩ : Shape).Idx → EReal)
    (ddt : (⟨2, ![256, 512]⟩ : Shape).Idx → EReal) (d : Fin 4096) (j : Fin 512) : EReal :=
  ∑ b : Fin 256, (∑ a : Fin 512, df (ix2 d a) * dt (ix2 a b)) * ddt (ix2 b j)

/-- One row's masked score against feature row d (`Ht k d` is the feature matrix read transposed): the inner product
    where the mask word is not zero, zero elsewhere. -/
def score (xr : Fin 512 → EReal) (mr : Fin 4096 → BitVec 32) (Ht : Fin 512 → Fin 4096 → EReal) (d : Fin 4096) : EReal :=
  Scalar.select (IntOp.cmpi .ne (mr d) 0#32) (∑ k : Fin 512, xr k * Ht k d) 0

/-- One row's contribution: its masked scores times the feature matrix, at column j. -/
def contrib (xr : Fin 512 → EReal) (mr : Fin 4096 → BitVec 32) (H : Fin 4096 → Fin 512 → EReal)
    (Ht : Fin 512 → Fin 4096 → EReal) (j : Fin 512) : EReal :=
  ∑ d : Fin 4096, score xr mr Ht d * H d j

/-- One row of the result, 1024 columns: x + contribution, then x · top + contribution · bot. -/
def rowOut (xr : Fin 512 → EReal) (mr : Fin 4096 → BitVec 32) (H : Fin 4096 → Fin 512 → EReal)
    (Ht : Fin 512 → Fin 4096 → EReal) (top bot : Fin 512 → Fin 512 → EReal) (c : Fin 1024) : EReal :=
  if h : c.val < 512 then xr ⟨c.val, h⟩ + contrib xr mr H Ht ⟨c.val, h⟩
  else (∑ k : Fin 512, xr k * top k ⟨c.val - 512, by have := c.isLt; omega⟩)
    + ∑ k : Fin 512, contrib xr mr H Ht k * bot k ⟨c.val - 512, by have := c.isLt; omega⟩

/-- A column c of the left half, c = j: x j plus the contribution at j. -/
theorem rowOut_left (xr : Fin 512 → EReal) (mr : Fin 4096 → BitVec 32) (H : Fin 4096 → Fin 512 → EReal)
    (Ht : Fin 512 → Fin 4096 → EReal) (top bot : Fin 512 → Fin 512 → EReal) (c : Fin 1024) (j : Fin 512) (h : c.val = j.val) :
    rowOut xr mr H Ht top bot c = xr j + contrib xr mr H Ht j := by
  have hj := j.isLt
  unfold rowOut
  rw [dif_pos (by omega)]
  have e : (⟨c.val, by omega⟩ : Fin 512) = j := Fin.ext h
  rw [e]

/-- A column c of the right half, c = 512 + j: x · top plus contribution · bot at j. -/
theorem rowOut_right (xr : Fin 512 → EReal) (mr : Fin 4096 → BitVec 32) (H : Fin 4096 → Fin 512 → EReal)
    (Ht : Fin 512 → Fin 4096 → EReal) (top bot : Fin 512 → Fin 512 → EReal) (c : Fin 1024) (j : Fin 512)
    (h : c.val = 512 + j.val) :
    rowOut xr mr H Ht top bot c = (∑ k : Fin 512, xr k * top k j) + ∑ k : Fin 512, contrib xr mr H Ht k * bot k j := by
  have hj := j.isLt
  unfold rowOut
  rw [dif_neg (by omega)]
  have e : (⟨c.val - 512, by omega⟩ : Fin 512) = j := Fin.ext (by show c.val - 512 = j.val; omega)
  rw [e]

/-- The whole result [8192, 1, 1024] as one function of the six argument arrays. -/
def result (x : (⟨2, ![8192, 512]⟩ : Shape).Idx → EReal) (df : (⟨2, ![4096, 512]⟩ : Shape).Idx → EReal)
    (dt : (⟨2, ![512, 256]⟩ : Shape).Idx → EReal) (ddt : (⟨2, ![256, 512]⟩ : Shape).Idx → EReal)
    (drm : (⟨2, ![1024, 512]⟩ : Shape).Idx → EReal) (mk : (⟨2, ![8192, 4096]⟩ : Shape).Idx → BitVec 32) :
    (⟨3, ![8192, 1, 1024]⟩ : Shape).Idx → EReal := fun i =>
  rowOut (fun k => x (ix2 ⟨(i 0).val, (i 0).isLt⟩ k)) (fun d => mk (ix2 ⟨(i 0).val, (i 0).isLt⟩ d))
    (feat df dt ddt) (fun k d => feat df dt ddt d k)
    (fun k j => drm (ix2 ⟨k.val, by have := k.isLt; omega⟩ j))
    (fun k j => drm (ix2 ⟨512 + k.val, by have := k.isLt; omega⟩ j)) ⟨(i 2).val, (i 2).isLt⟩

/-- A factor times a mask bit read as the number 0 or 1 is the selection between the factor and zero: at bit 1 the
    product with 1, at bit 0 the product with 0, which is 0 for every extended real. -/
theorem mul_maskBit (s : EReal) (b : BitVec 1) : s * ((b.toNat : ℝ) : EReal) = Scalar.select b s 0 := by
  rcases BitVec.eq_zero_or_eq_one b with h | h
  · subst h; simp [Scalar.select]
  · subst h; simp [Scalar.select]

/-- A sum over 1024 positions is the sum over the first 512 plus the sum over the last 512. -/
theorem sum_halves {M : Type*} [AddCommMonoid M] (f : Fin 1024 → M) :
    ∑ k : Fin 1024, f k
      = (∑ k : Fin 512, f ⟨k.val, by have := k.isLt; omega⟩) + ∑ k : Fin 512, f ⟨512 + k.val, by have := k.isLt; omega⟩ :=
  Fin.sum_univ_add (a := 512) (b := 512) f

end Cert.Spec

end
-- ==== Proof.RegionFeat.lean ====
/- The first pallas_call, from whatever contents `V` it is entered at: what its two result arrays hold when it ends.

   The grid has four points; point t stages rows 1024·t … 1024·t + 1023 of the feature array and the two weight
   matrices whole, and writes back rows 1024·t … of the first result and columns 1024·t … of the second. What a point
   writes back is its block of ONE whole-array function — the transformed feature matrix H = (F · W₁) · W₂, and its
   transpose — and the four blocks tile each array, so the arrays end at H and at Hᵀ. -/
import proofs.«110785_j15702400434467_1_alg».proof.Proof.Gen.KernelIdeal.Frame
import proofs.«110785_j15702400434467_1_alg».proof.Proof.BodyFeat
import proofs.«110785_j15702400434467_1_alg».proof.Proof.Spec
import Idealize.ShloMosaic.Lib.Pipeline.Value

set_option maxRecDepth 16384

noncomputable section

namespace Cert.KernelIdeal.FeatRegion

open Cert.KernelIdeal Cert.KernelIdeal.Gen Idealize.ShloMosaic Idealize.ShloMosaic.TcCoe Idealize.SL.Sem
open Idealize.ShloMosaic.ValueIdx Cert.Spec
open Idealize.ShloMosaic.Pipeline (Dat)

variable (V : (c : Dev nD) → (b : Ref sig .tc) → Buf (Elt Ideal) ((c : Thread nD τ).loc b))

/-- The transformed feature matrix as an array [4096, 512]. -/
def featArr (df : Vec Ideal S4096x512 .f32) (dt : Vec Ideal S512x256 .f32) (ddt : Vec Ideal S256x512 .f32) :
    Vec Ideal S4096x512 .bf16 :=
  fun i => feat df dt ddt ⟨(i 0).val, (i 0).isLt⟩ ⟨(i 1).val, (i 1).isLt⟩

/-- Its transpose as an array [512, 4096]. -/
def featArrT (df : Vec Ideal S4096x512 .f32) (dt : Vec Ideal S512x256 .f32) (ddt : Vec Ideal S256x512 .f32) :
    Vec Ideal S512x4096 .bf16 :=
  fun i => feat df dt ddt ⟨(i 1).val, (i 1).isLt⟩ ⟨(i 0).val, (i 0).isLt⟩

theorem hz : (![0, 0] : Fin 2 → Nat) = fun _ => 0 := funext fun a => by fin_cases a <;> rfl

/-- The index maps over the four points: the feature rows' block and both results' blocks sit at block index t along the
    tiled axis and 0 along the other; the weight matrices are whole at every point. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = t.val :=
  (by decide +kernel : ∀ t : Fin grid0.N, _)

/-- Body entry (r, j) at point t from the arrays: the double sum over the staged rows 1024·t + r. -/
theorem block_feat (c : Dev nD) (t : Fin cfg0.N) (r : Fin 1024) (j : Fin 512) (R : Fin 4096) (hR : R.val = t.val * 1024 + r.val) :
    k0_pay1 (iblk0 V c 0 t) (iblk0 V c 1 t) (iblk0 V c 2 t) (ix2 r j)
      = feat (V c main_arg1) (V c main_arg2) (V c main_arg3) R j := by
  refine (FeatBody.pay1_at (iblk0 V c 0 t) (iblk0 V c 1 t) (iblk0 V c 2 t) r j).trans ?_
  obtain ⟨e00, e01, e10, e11, e20, e21, -⟩ := idx_facts t
  unfold feat
  refine Finset.sum_congr rfl fun b _ => ?_
  have h2 : iblk0 V c 2 t (ix2 b j) = V c main_arg3 (ix2 b j) := by
    show V c main_arg3 (((cfg0.win 2).blk t).view.emb (ix2 b j)) = V c main_arg3 (ix2 b j)
    refine congrArg (V c main_arg3) (funext fun a => Fin.ext ?_)
    match a with
    | ⟨0, _⟩ => show win0_2.index t (0 : Fin 2) * 256 + 1 * b.val = b.val; omega
    | ⟨1, _⟩ => show win0_2.index t (1 : Fin 2) * 512 + 1 * j.val = j.val; omega
  rw [h2]
  refine congrArg (· * V c main_arg3 (ix2 b j)) (Finset.sum_congr rfl fun a _ => ?_)
  have h0 : iblk0 V c 0 t (ix2 r a) = V c main_arg1 (ix2 R a) := by
    show V c main_arg1 (((cfg0.win 0).blk t).view.emb (ix2 r a)) = V c main_arg1 (ix2 R a)
    refine congrArg (V c main_arg1) (funext fun ax => Fin.ext ?_)
    match ax with
    | ⟨0, _⟩ => show win0_0.index t (0 : Fin 2) * 1024 + 1 * r.val = R.val; omega
    | ⟨1, _⟩ => show win0_0.index t (1 : Fin 2) * 512 + 1 * a.val = a.val; omega
  have h1 : iblk0 V c 1 t (ix2 a b) = V c main_arg2 (ix2 a b) := by
    show V c main_arg2 (((cfg0.win 1).blk t).view.emb (ix2 a b)) = V c main_arg2 (ix2 a b)
    refine congrArg (V c main_arg2) (funext fun ax => Fin.ext ?_)
    match ax with
    | ⟨0, _⟩ => show win0_1.index t (0 : Fin 2) * 512 + 1 * a.val = a.val; omega
    | ⟨1, _⟩ => show win0_1.index t (1 : Fin 2) * 256 + 1 * b.val = b.val; omega
  rw [h0, h1]

/-- WHAT POINT t WRITES BACK to the first result is block t of the transformed feature matrix. -/
theorem flushed3_eq (c : Dev nD) (t : Fin cfg0.N) :
    (dat0 V c).flushed 3 t
      = ((cfg0.win 3).blk t).view.read (Elt Ideal) (featArr (V c main_arg1) (V c main_arg2) (V c main_arg3)) := by
  show (cfg0.win 3).cut (grid0.coords t) ((dat0 V c).after 3 t) = _
  rw [after0_3]
  unfold out0_3
  rw [View.canon_unit_zero hz]
  simp only [View.ld_unit_zero (S := S1024x512) hz, View.ld_unit_zero (S := S512x256) hz, View.ld_unit_zero (S := S256x512) hz]
  funext y
  obtain ⟨r, j, rfl⟩ : ∃ (r : Fin 1024) (j : Fin 512), y = ix2 r j := ⟨y 0, y 1, eq_ix2 y⟩
  obtain ⟨-, -, -, -, -, -, e30, e31, -⟩ := idx_facts t
  have ht : t.val < 4 := lt_of_lt_of_eq t.isLt N_0
  refine (block_feat V c t r j ⟨t.val * 1024 + r.val, by have := r.isLt; omega⟩ rfl).trans ?_
  show _ = feat (V c main_arg1) (V c main_arg2) (V c main_arg3) ⟨_, _⟩ ⟨_, _⟩
  refine congrArg₂ (feat (V c main_arg1) (V c main_arg2) (V c main_arg3)) (Fin.ext ?_) (Fin.ext ?_)
  · show t.val * 1024 + r.val = win0_3.index t (0 : Fin 2) * 1024 + 1 * r.val; omega
  · show j.val = win0_3.index t (1 : Fin 2) * 512 + 1 * j.val; omega

/-- WHAT POINT t WRITES BACK to the second result is block t (a band of 1024 columns) of the transposed matrix. -/
theorem flushed4_eq (c : Dev nD) (t : Fin cfg0.N) :
    (dat0 V c).flushed 4 t
      = ((cfg0.win 4).blk t).view.read (Elt Ideal) (featArrT (V c main_arg1) (V c main_arg2) (V c main_arg3)) := by
  show (cfg0.win 4).cut (grid0.coords t) ((dat0 V c).after 4 t) = _
  rw [after0_4]
  unfold out0_4
  rw [View.canon_unit_zero hz]
  simp only [View.ld_unit_zero (S := S1024x512) hz, View.ld_unit_zero (S := S512x256) hz, View.ld_unit_zero (S := S256x512) hz]
  funext y
  obtain ⟨j, r, rfl⟩ : ∃ (j : Fin 512) (r : Fin 1024), y = ix2 j r := ⟨y 0, y 1, eq_ix2 y⟩
  obtain ⟨-, -, -, -, -, -, -, -, e40, e41⟩ := idx_facts t
  have ht : t.val < 4 := lt_of_lt_of_eq t.isLt N_0
  refine (FeatBody.pay2_at (iblk0 V c 0 t) (iblk0 V c 1 t) (iblk0 V c 2 t) j r).trans ?_
  refine (block_feat V c t r j ⟨t.val * 1024 + r.val, by have := r.isLt; omega⟩ rfl).trans ?_
  show _ = feat (V c main_arg1) (V c main_arg2) (V c main_arg3) ⟨_, _⟩ ⟨_, _⟩
  refine congrArg₂ (feat (V c main_arg1) (V c main_arg2) (V c main_arg3)) (Fin.ext ?_) (Fin.ext ?_)
  · show t.val * 1024 + r.val = win0_4.index t (1 : Fin 2) * 1024 + 1 * r.val; omega
  · show j.val = win0_4.index t (0 : Fin 2) * 512 + 1 * j.val; omega

/-- An index of the first result is in point t's block iff each coordinate is in the block's range on its axis. -/
theorem mem_blk3 (t : Fin cfg0.N) (i : S4096x512.Idx) :
    i ∈ ((cfg0.win 3).blk t).view.set ↔ ∀ a : Fin 2, win0_3.index t a * S1024x512.size a ≤ (i a).val
      ∧ (i a).val < win0_3.index t a * S1024x512.size a + S1024x512.size a := by
  show i ∈ ((View.whole main_v0_0).slice (win0_3.rect t)).set ↔ _
  rw [View.set_slice_whole, Rect.mem_set_unit]
  exact Iff.rfl

/-- The same for the second result. -/
theorem mem_blk4 (t : Fin cfg0.N) (i : S512x4096.Idx) :
    i ∈ ((cfg0.win 4).blk t).view.set ↔ ∀ a : Fin 2, win0_4.index t a * S512x1024.size a ≤ (i a).val
      ∧ (i a).val < win0_4.index t a * S512x1024.size a + S512x1024.size a := by
  show i ∈ ((View.whole main_v0_1).slice (win0_4.rect t)).set ↔ _
  rw [View.set_slice_whole, Rect.mem_set_unit]
  exact Iff.rfl

/-- Row i₀ of the first result lies in the block of point i₀ / 1024. -/
theorem cover3 (i : S4096x512.Idx) :
    ∃ t : Fin cfg0.N, (cfg0.win 3).flush t = true ∧ i ∈ ((cfg0.win 3).blk t).view.set := by
  have hi0 : (i 0).val < 4096 := (i 0).isLt
  have hi1 : (i 1).val < 512 := (i 1).isLt
  have hN : (i 0).val / 1024 < cfg0.N := lt_of_lt_of_eq (by omega : (i 0).val / 1024 < 4) N_0.symm
  obtain ⟨-, -, -, -, -, -, e30, e31, -⟩ := idx_facts ⟨(i 0).val / 1024, hN⟩
  refine ⟨⟨(i 0).val / 1024, hN⟩, flush0_3 _, ?_⟩
  rw [mem_blk3]
  intro a
  match a with
  | ⟨0, _⟩ =>
    show win0_3.index ⟨(i 0).val / 1024, hN⟩ (0 : Fin 2) * 1024 ≤ (i 0).val
      ∧ (i 0).val < win0_3.index ⟨(i 0).val / 1024, hN⟩ (0 : Fin 2) * 1024 + 1024
    rw [e30]; show (i 0).val / 1024 * 1024 ≤ (i 0).val ∧ (i 0).val < (i 0).val / 1024 * 1024 + 1024; omega
  | ⟨1, _⟩ =>
    show win0_3.index ⟨(i 0).val / 1024, hN⟩ (1 : Fin 2) * 512 ≤ (i 1).val
      ∧ (i 1).val < win0_3.index ⟨(i 0).val / 1024, hN⟩ (1 : Fin 2) * 512 + 512
    rw [e31]; omega

/-- Column i₁ of the second result lies in the block of point i₁ / 1024. -/
theorem cover4 (i : S512x4096.Idx) :
    ∃ t : Fin cfg0.N, (cfg0.win 4).flush t = true ∧ i ∈ ((cfg0.win 4).blk t).view.set := by
  have hi0 : (i 0).val < 512 := (i 0).isLt
  have hi1 : (i 1).val < 4096 := (i 1).isLt
  have hN : (i 1).val / 1024 < cfg0.N := lt_of_lt_of_eq (by omega : (i 1).val / 1024 < 4) N_0.symm
  obtain ⟨-, -, -, -, -, -, -, -, e40, e41⟩ := idx_facts ⟨(i 1).val / 1024, hN⟩
  refine ⟨⟨(i 1).val / 1024, hN⟩, flush0_4 _, ?_⟩
  rw [mem_blk4]
  intro a
  match a with
  | ⟨0, _⟩ =>
    show win0_4.index ⟨(i 1).val / 1024, hN⟩ (0 : Fin 2) * 512 ≤ (i 0).val
      ∧ (i 0).val < win0_4.index ⟨(i 1).val / 1024, hN⟩ (0 : Fin 2) * 512 + 512
    rw [e40]; omega
  | ⟨1, _⟩ =>
    show win0_4.index ⟨(i 1).val / 1024, hN⟩ (1 : Fin 2) * 1024 ≤ (i 1).val
      ∧ (i 1).val < win0_4.index ⟨(i 1).val / 1024, hN⟩ (1 : Fin 2) * 1024 + 1024
    rw [e41]; show (i 1).val / 1024 * 1024 ≤ (i 1).val ∧ (i 1).val < (i 1).val / 1024 * 1024 + 1024; omega

/-- THE FIRST RESULT after the region: the transformed feature matrix of the three arrays the region read. -/
theorem final3 (c : Dev nD) :
    (dat0 V c).arrAt 3 cfg0.N = featArr (V c main_arg1) (V c main_arg2) (V c main_arg3) :=
  (dat0 V c).arrAt_eq_of_cover 3 (featArr (V c main_arg1) (V c main_arg2) (V c main_arg3))
    (fun t _ => flushed3_eq V c t) cover3

/-- THE SECOND RESULT after the region: its transpose. -/
theorem final4 (c : Dev nD) :
    (dat0 V c).arrAt 4 cfg0.N = featArrT (V c main_arg1) (V c main_arg2) (V c main_arg3) :=
  (dat0 V c).arrAt_eq_of_cover 4 (featArrT (V c main_arg1) (V c main_arg2) (V c main_arg3))
    (fun t _ => flushed4_eq V c t) cover4

end Cert.KernelIdeal.FeatRegion

end
-- ==== Proof.BodyMain.lean ====
/- The second kernel's body, as a function of the blocks it loads, read at an entry.

   For a block of 256 entity rows x with their mask words, and the whole feature matrix H (loaded both as it is and
   transposed) and the two halves of the reduction matrix: scores = x · Hᵀ, kept where the mask word is not zero and
   replaced by zero elsewhere; contribution = masked scores · H; the left 512 columns of the stored block are
   x + contribution, the right 512 are x · top + contribution · bot. Row r of the stored block is `Spec.rowOut` of
   row r of x, row r of the mask, and the whole matrices. -/
import proofs.«110785_j15702400434467_1_alg».proof.Proof.Gen.KernelIdeal.Frame
import proofs.«110785_j15702400434467_1_alg».proof.Proof.LibPlainProduct
import proofs.«110785_j15702400434467_1_alg».proof.Proof.Spec
import Idealize.ShloMosaic.Lib.Pipeline.Value

set_option maxRecDepth 16384

noncomputable section

namespace Cert.KernelIdeal.MainBody

open Cert.KernelIdeal Cert.KernelIdeal.Gen Idealize.ShloMosaic Idealize.ShloMosaic.ValueIdx
open Cert.Lib.PlainProduct Cert.Spec

variable (v0 : Vec Ideal S256x512 .f32) (v2 : Vec Ideal S512x4096 .bf16) (v5 : Vec Ideal S256x4096 .i32)
  (v11 : Vec Ideal S4096x512 .bf16) (v16 v19 : Vec Ideal S512x512 .bf16)

/-- The contribution block: the product of the masked scores with the feature matrix, over the plain records. -/
theorem pay2_eq :
    k1_pay2 v0 v2 v5 v11 = matmul (F := Ideal) (φ₁ := .bf16) (φ₂ := .bf16) (DotDims.plain 256 4096 512) none
      (select (cmpi .ne v5 (broadcast S256x4096 (0#32 : BitVec 32)))
        (matmul (F := Ideal) (φ₁ := .bf16) (φ₂ := .bf16) (DotDims.plain 256 512 4096) none v0
          (shapeCast S512x4096 v2 shapeCasts_S512x4096_S512x4096) (constant ⟨2, ![256, 4096]⟩ .f32 0x00000000#32))
        (broadcast S256x4096 (Scalar.ofBits (F := Ideal) .f32 0x00000000#32)))
      (shapeCast S4096x512 v11 shapeCasts_S4096x512_S4096x512)
      (constant ⟨2, ![256, 512]⟩ .f32 0x00000000#32) := rfl

/-- Entry (r, j) of the contribution block is row r's contribution at column j. -/
theorem pay2_at (r : Fin 256) (j : Fin 512) :
    k1_pay2 v0 v2 v5 v11 (ix2 r j)
      = contrib (fun k => v0 (ix2 r k)) (fun d => v5 (ix2 r d)) (fun d j => v11 (ix2 d j)) (fun k d => v2 (ix2 k d)) j := by
  rw [pay2_eq, shapeCast_self, shapeCast_self, matmul_zero_plain_apply]
  unfold contrib score
  refine Finset.sum_congr rfl fun d _ => ?_
  refine congrArg (· * v11 (ix2 d j)) ?_
  show Scalar.select (IntOp.cmpi .ne (v5 (ix2 r d)) 0#32) _ (Ideal.ofBits .f32 0x00000000#32) = _
  rw [matmul_zero_plain_apply, Ideal.ofBits_zero_f32]

/-- The left store's block: x plus the contribution. -/
theorem pay3_at (r : Fin 256) (j : Fin 512) :
    k1_pay3 v0 v2 v5 v11 (ix2 r j) = v0 (ix2 r j) + k1_pay2 v0 v2 v5 v11 (ix2 r j) := rfl

/-- The right store's block as two products into zero accumulators, added. -/
theorem pay4_eq :
    k1_pay4 v0 v2 v5 v11 v16 v19 = addf
      (matmul (F := Ideal) (φ₁ := .bf16) (φ₂ := .bf16) (DotDims.plain 256 512 512) none v0
        (shapeCast S512x512 v16 shapeCasts_S512x512_S512x512) (constant ⟨2, ![256, 512]⟩ .f32 0x00000000#32))
      (matmul (F := Ideal) (φ₁ := .bf16) (φ₂ := .bf16) (DotDims.plain 256 512 512) none (k1_pay2 v0 v2 v5 v11)
        (shapeCast S512x512 v19 shapeCasts_S512x512_S512x512) (constant ⟨2, ![256, 512]⟩ .f32 0x00000000#32)) := rfl

/-- Entry (r, j) of the right store's block: x · top plus contribution · bot. -/
theorem pay4_at (r : Fin 256) (j : Fin 512) :
    k1_pay4 v0 v2 v5 v11 v16 v19 (ix2 r j)
      = (∑ k : Fin 512, v0 (ix2 r k) * v16 (ix2 k j)) + ∑ k : Fin 512, k1_pay2 v0 v2 v5 v11 (ix2 r k) * v19 (ix2 k j) := by
  rw [pay4_eq, shapeCast_self, shapeCast_self]
  show matmul _ _ _ _ _ (ix2 r j) + matmul _ _ _ _ _ (ix2 r j) = _
  rw [matmul_zero_plain_apply, matmul_zero_plain_apply]

end Cert.KernelIdeal.MainBody

end
-- ==== Proof.RegionMain.lean ====
/- The second pallas_call, from whatever contents `V` it is entered at: what its result array holds when it ends.

   The grid has 32 points; point t stages rows 256·t … 256·t + 255 of the entity features and of the mask, and the
   feature matrix, its transpose and the two halves of the reduction matrix whole; it writes back rows 256·t … of the
   result. Row r of what a point writes back is `Spec.rowOut` of its row of x and of the mask and of the whole
   matrices, so every point writes its block of ONE whole-array function, and the 32 blocks tile the result. -/
import proofs.«110785_j15702400434467_1_alg».proof.Proof.Gen.KernelIdeal.Frame
import proofs.«110785_j15702400434467_1_alg».proof.Proof.BodyMain
import proofs.«110785_j15702400434467_1_alg».proof.Proof.Spec
import Idealize.ShloMosaic.Lib.Pipeline.Value

set_option maxRecDepth 16384

noncomputable section

namespace Cert.KernelIdeal.MainRegion

open Cert.KernelIdeal Cert.KernelIdeal.Gen Idealize.ShloMosaic Idealize.ShloMosaic.TcCoe Idealize.SL.Sem
open Idealize.ShloMosaic.ValueIdx Cert.Spec
open Idealize.ShloMosaic.Pipeline (Dat)

theorem hz : (![0, 0] : Fin 2 → Nat) = fun _ => 0 := funext fun a => by fin_cases a <;> rfl

/-! ## One staged block -/

section Block
variable (x0 : Vec Ideal S256x512 .f32) (x1 : Vec Ideal S256x4096 .i32) (x2 : Vec Ideal S4096x512 .bf16)
  (x3 : Vec Ideal S512x4096 .bf16) (x4 x5 : Vec Ideal S512x512 .bf16)

/-- Row a, column c of the block a point computes from its six staged blocks. -/
def blockRow (a : Fin 256) (c : Fin 1024) : EReal :=
  rowOut (fun k => x0 (ix2 a k)) (fun d => x1 (ix2 a d)) (fun d j => x2 (ix2 d j)) (fun k d => x3 (ix2 k d))
    (fun k j => x4 (ix2 k j)) (fun k j => x5 (ix2 k j)) c

/-- The left store's entry (a, b) is column b of the row. -/
theorem pay3_row (a : Fin 256) (b : Fin 512) (c : Fin 1024) (hc : c.val = b.val) :
    k1_pay3 x0 x3 x1 x2 (ix2 a b) = blockRow x0 x1 x2 x3 x4 x5 a c := by
  rw [MainBody.pay3_at, MainBody.pay2_at]
  unfold blockRow
  rw [rowOut_left _ _ _ _ _ _ c b hc]

/-- The right store's entry (a, b) is column 512 + b of the row. -/
theorem pay4_row (a : Fin 256) (b : Fin 512) (c : Fin 1024) (hc : c.val = 512 + b.val) :
    k1_pay4 x0 x3 x1 x2 x4 x5 (ix2 a b) = blockRow x0 x1 x2 x3 x4 x5 a c := by
  rw [MainBody.pay4_at]
  unfold blockRow
  rw [rowOut_right _ _ _ _ _ _ c b hc]
  simp only [MainBody.pay2_at]

/-- The staging buffer after the body — the two stores side by side — read at any index: the row's column. -/
theorem out_block (y : S256x1024.Idx) :
    out1_6 x0 x1 x2 x3 x4 x5 y = blockRow x0 x1 x2 x3 x4 x5 ⟨(y 0).val, (y 0).isLt⟩ ⟨(y 1).val, (y 1).isLt⟩ := by
  unfold out1_6
  simp only [View.ld_unit_zero (S := S256x512) hz, View.ld_unit_zero (S := S512x4096) hz, View.ld_unit_zero (S := S256x4096) hz,
    View.ld_unit_zero (S := S4096x512) hz, View.ld_unit_zero (S := S512x512) hz]
  refine View.canon_apply_of_pieces (Val := Elt Ideal) (e := .f32)
    (fun y : S256x1024.Idx => (blockRow x0 x1 x2 x3 x4 x5 ⟨(y 0).val, (y 0).isLt⟩ ⟨(y 1).val, (y 1).isLt⟩ : Elt Ideal .f32))
    _ ?_ y (cover1_6 _ _ y)
  intro p hp x
  rcases List.mem_cons.mp hp with rfl | hp
  · obtain ⟨a, b, rfl⟩ : ∃ (a : Fin 256) (b : Fin 512), x = ix2 a b := ⟨x 0, x 1, eq_ix2 x⟩
    refine (pay4_row x0 x1 x2 x3 x4 x5 a b ⟨512 + b.val, by have := b.isLt; omega⟩ rfl).trans ?_
    refine congrArg₂ (blockRow x0 x1 x2 x3 x4 x5) (Fin.ext ?_) (Fin.ext ?_)
    · show a.val = 0 + 1 * a.val; omega
    · show 512 + b.val = 512 + 1 * b.val; omega
  · rcases List.mem_cons.mp hp with rfl | hp
    · obtain ⟨a, b, rfl⟩ : ∃ (a : Fin 256) (b : Fin 512), x = ix2 a b := ⟨x 0, x 1, eq_ix2 x⟩
      refine (pay3_row x0 x1 x2 x3 x4 x5 a b ⟨b.val, by have := b.isLt; omega⟩ rfl).trans ?_
      refine congrArg₂ (blockRow x0 x1 x2 x3 x4 x5) (Fin.ext ?_) (Fin.ext ?_)
      · show a.val = 0 + 1 * a.val; omega
      · show b.val = 0 + 1 * b.val; omega
    · exact absurd hp List.not_mem_nil

end Block

/-! ## The region -/

variable (V : (c : Dev nD) → (b : Ref sig .tc) → Buf (Elt Ideal) ((c : Thread nD τ).loc b))

/-- The result array [8192, 1024] as one function of the six arrays the region reads. -/
def outArr (x : Vec Ideal S8192x512 .f32) (mk : Vec Ideal S8192x4096 .i32) (Hb : Vec Ideal S4096x512 .bf16)
    (HTb : Vec Ideal S512x4096 .bf16) (top bot : Vec Ideal S512x512 .bf16) : Vec Ideal S8192x1024 .f32 :=
  fun i => rowOut (fun k => x (ix2 ⟨(i 0).val, (i 0).isLt⟩ k)) (fun d => mk (ix2 ⟨(i 0).val, (i 0).isLt⟩ d))
    (fun d j => Hb (ix2 d j)) (fun k d => HTb (ix2 k d)) (fun k j => top (ix2 k j)) (fun k j => bot (ix2 k j))
    ⟨(i 1).val, (i 1).isLt⟩

/-- The index maps over the 32 points: the entity rows', the mask's and the result's blocks sit at block index t along
    the rows; the four matrices are whole at every point. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row a of what point t computes is row 256·t + a of the whole-array function. -/
theorem block_out (c : Dev nD) (t : Fin cfg1.N) (a : Fin 256) (cc : Fin 1024) (R : Fin 8192) (hR : R.val = t.val * 256 + a.val) :
    blockRow (iblk1 V c 0 t) (iblk1 V c 1 t) (iblk1 V c 2 t) (iblk1 V c 3 t) (iblk1 V c 4 t) (iblk1 V c 5 t) a cc
      = outArr (V c main_arg0) (V c main_arg5) (V c main_v0_0) (V c main_v0_1) (V c main_v2) (V c main_v4) (ix2 R cc) := by
  obtain ⟨e00, e01, e10, e11, e20, e21, e30, e31, e40, e41, e50, e51, -⟩ := idx_facts t
  have f0 : (fun k : Fin 512 => iblk1 V c 0 t (ix2 a k)) = fun k => V c main_arg0 (ix2 R k) := funext fun k => by
    show V c main_arg0 (((cfg1.win 0).blk t).view.emb (ix2 a k)) = V c main_arg0 (ix2 R k)
    refine congrArg (V c main_arg0) (funext fun ax => Fin.ext ?_)
    match ax with
    | ⟨0, _⟩ => show win1_0.index t (0 : Fin 2) * 256 + 1 * a.val = R.val; omega
    | ⟨1, _⟩ => show win1_0.index t (1 : Fin 2) * 512 + 1 * k.val = k.val; omega
  have f1 : (fun d : Fin 4096 => iblk1 V c 1 t (ix2 a d)) = fun d => V c main_arg5 (ix2 R d) := funext fun d => by
    show V c main_arg5 (((cfg1.win 1).blk t).view.emb (ix2 a d)) = V c main_arg5 (ix2 R d)
    refine congrArg (V c main_arg5) (funext fun ax => Fin.ext ?_)
    match ax with
    | ⟨0, _⟩ => show win1_1.index t (0 : Fin 2) * 256 + 1 * a.val = R.val; omega
    | ⟨1, _⟩ => show win1_1.index t (1 : Fin 2) * 4096 + 1 * d.val = d.val; omega
  have f2 : (fun (d : Fin 4096) (j : Fin 512) => iblk1 V c 2 t (ix2 d j)) = fun d j => V c main_v0_0 (ix2 d j) :=
    funext fun d => funext fun j => by
    show V c main_v0_0 (((cfg1.win 2).blk t).view.emb (ix2 d j)) = V c main_v0_0 (ix2 d j)
    refine congrArg (V c main_v0_0) (funext fun ax => Fin.ext ?_)
    match ax with
    | ⟨0, _⟩ => show win1_2.index t (0 : Fin 2) * 4096 + 1 * d.val = d.val; omega
    | ⟨1, _⟩ => show win1_2.index t (1 : Fin 2) * 512 + 1 * j.val = j.val; omega
  have f3 : (fun (k : Fin 512) (d : Fin 4096) => iblk1 V c 3 t (ix2 k d)) = fun k d => V c main_v0_1 (ix2 k d) :=
    funext fun k => funext fun d => by
    show V c main_v0_1 (((cfg1.win 3).blk t).view.emb (ix2 k d)) = V c main_v0_1 (ix2 k d)
    refine congrArg (V c main_v0_1) (funext fun ax => Fin.ext ?_)
    match ax with
    | ⟨0, _⟩ => show win1_3.index t (0 : Fin 2) * 512 + 1 * k.val = k.val; omega
    | ⟨1, _⟩ => show win1_3.index t (1 : Fin 2) * 4096 + 1 * d.val = d.val; omega
  have f4 : (fun (k : Fin 512) (j : Fin 512) => iblk1 V c 4 t (ix2 k j)) = fun k j => V c main_v2 (ix2 k j) :=
    funext fun k => funext fun j => by
    show V c main_v2 (((cfg1.win 4).blk t).view.emb (ix2 k j)) = V c main_v2 (ix2 k j)
    refine congrArg (V c main_v2) (funext fun ax => Fin.ext ?_)
    match ax with
    | ⟨0, _⟩ => show win1_4.index t (0 : Fin 2) * 512 + 1 * k.val = k.val; omega
    | ⟨1, _⟩ => show win1_4.index t (1 : Fin 2) * 512 + 1 * j.val = j.val; omega
  have f5 : (fun (k : Fin 512) (j : Fin 512) => iblk1 V c 5 t (ix2 k j)) = fun k j => V c main_v4 (ix2 k j) :=
    funext fun k => funext fun j => by
    show V c main_v4 (((cfg1.win 5).blk t).view.emb (ix2 k j)) = V c main_v4 (ix2 k j)
    refine congrArg (V c main_v4) (funext fun ax => Fin.ext ?_)
    match ax with
    | ⟨0, _⟩ => show win1_5.index t (0 : Fin 2) * 512 + 1 * k.val = k.val; omega
    | ⟨1, _⟩ => show win1_5.index t (1 : Fin 2) * 512 + 1 * j.val = j.val; omega
  unfold blockRow outArr
  rw [f0, f1, f2, f3, f4, f5]

/-- WHAT POINT t WRITES BACK is block t of the whole-array function. -/
theorem flushed6_eq (c : Dev nD) (t : Fin cfg1.N) :
    (dat1 V c).flushed 6 t = ((cfg1.win 6).blk t).view.read (Elt Ideal)
      (outArr (V c main_arg0) (V c main_arg5) (V c main_v0_0) (V c main_v0_1) (V c main_v2) (V c main_v4)) := by
  show (cfg1.win 6).cut (grid1.coords t) ((dat1 V c).after 6 t) = _
  rw [after1_6]
  funext y
  obtain ⟨-, -, -, -, -, -, -, -, -, -, -, -, e60, e61⟩ := idx_facts t
  have ht : t.val < 32 := lt_of_lt_of_eq t.isLt N_1
  have hy0 : (y 0).val < 256 := (y 0).isLt
  have hy1 : (y 1).val < 1024 := (y 1).isLt
  refine (out_block (iblk1 V c 0 t) (iblk1 V c 1 t) (iblk1 V c 2 t) (iblk1 V c 3 t) (iblk1 V c 4 t) (iblk1 V c 5 t) y).trans ?_
  refine (block_out V c t ⟨(y 0).val, hy0⟩ ⟨(y 1).val, hy1⟩ ⟨t.val * 256 + (y 0).val, by omega⟩ rfl).trans ?_
  show outArr (V c main_arg0) (V c main_arg5) (V c main_v0_0) (V c main_v0_1) (V c main_v2) (V c main_v4) _
    = outArr (V c main_arg0) (V c main_arg5) (V c main_v0_0) (V c main_v0_1) (V c main_v2) (V c main_v4) (((cfg1.win 6).blk t).view.emb y)
  refine congrArg (outArr (V c main_arg0) (V c main_arg5) (V c main_v0_0) (V c main_v0_1) (V c main_v2) (V c main_v4))
    (funext fun ax => Fin.ext ?_)
  match ax with
  | ⟨0, _⟩ => show t.val * 256 + (y 0).val = win1_6.index t (0 : Fin 2) * 256 + 1 * (y 0).val; omega
  | ⟨1, _⟩ => show (y 1).val = win1_6.index t (1 : Fin 2) * 1024 + 1 * (y 1).val; omega

/-- An index of the result is in point t's block iff each coordinate is in the block's range on its axis. -/
theorem mem_blk6 (t : Fin cfg1.N) (i : S8192x1024.Idx) :
    i ∈ ((cfg1.win 6).blk t).view.set ↔ ∀ a : Fin 2, win1_6.index t a * S256x1024.size a ≤ (i a).val
      ∧ (i a).val < win1_6.index t a * S256x1024.size a + S256x1024.size a := by
  show i ∈ ((View.whole main_v5).slice (win1_6.rect t)).set ↔ _
  rw [View.set_slice_whole, Rect.mem_set_unit]
  exact Iff.rfl

/-- Row i₀ of the result lies in the block of point i₀ / 256. -/
theorem cover6 (i : S8192x1024.Idx) :
    ∃ t : Fin cfg1.N, (cfg1.win 6).flush t = true ∧ i ∈ ((cfg1.win 6).blk t).view.set := by
  have hi0 : (i 0).val < 8192 := (i 0).isLt
  have hi1 : (i 1).val < 1024 := (i 1).isLt
  have hN : (i 0).val / 256 < cfg1.N := lt_of_lt_of_eq (by omega : (i 0).val / 256 < 32) N_1.symm
  obtain ⟨-, -, -, -, -, -, -, -, -, -, -, -, e60, e61⟩ := idx_facts ⟨(i 0).val / 256, hN⟩
  refine ⟨⟨(i 0).val / 256, hN⟩, flush1_6 _, ?_⟩
  rw [mem_blk6]
  intro a
  match a with
  | ⟨0, _⟩ =>
    show win1_6.index ⟨(i 0).val / 256, hN⟩ (0 : Fin 2) * 256 ≤ (i 0).val
      ∧ (i 0).val < win1_6.index ⟨(i 0).val / 256, hN⟩ (0 : Fin 2) * 256 + 256
    rw [e60]; show (i 0).val / 256 * 256 ≤ (i 0).val ∧ (i 0).val < (i 0).val / 256 * 256 + 256; omega
  | ⟨1, _⟩ =>
    show win1_6.index ⟨(i 0).val / 256, hN⟩ (1 : Fin 2) * 1024 ≤ (i 1).val
      ∧ (i 1).val < win1_6.index ⟨(i 0).val / 256, hN⟩ (1 : Fin 2) * 1024 + 1024
    rw [e61]; omega

/-- THE RESULT after the region: the whole-array function of the six arrays the region read. -/
theorem final6 (c : Dev nD) :
    (dat1 V c).arrAt 6 cfg1.N
      = outArr (V c main_arg0) (V c main_arg5) (V c main_v0_0) (V c main_v0_1) (V c main_v2) (V c main_v4) :=
  (dat1 V c).arrAt_eq_of_cover 6 (outArr (V c main_arg0) (V c main_arg5) (V c main_v0_0) (V c main_v0_1) (V c main_v2) (V c main_v4))
    (fun t _ => flushed6_eq V c t) cover6

end Cert.KernelIdeal.MainRegion

end
-- ==== Proof.KernelValue.lean ====
/- The kernel program's result buffer after the run, read back through the four stretches of @main to the launch
   memory: it is `Spec.result` of the six argument arrays.

   The last host operation gives the second pallas_call's result a unit axis in the middle. That pallas_call leaves the
   row-by-row function of the arrays it was entered at (`MainRegion.final6`): the entity features and the mask as launched,
   the two results of the first pallas_call, and the two halves of the reduction matrix, which the host stretch between
   the calls cuts out of the argument (rows 0 … 511 and 512 … 1023) and narrows — the identity on the extended reals. The
   first pallas_call leaves the transformed feature matrix and its transpose (`FeatRegion.final3`, `final4`) of the
   arguments as launched. -/
import proofs.«110785_j15702400434467_1_alg».proof.Proof.Gen.KernelIdeal.Frame
import proofs.«110785_j15702400434467_1_alg».proof.Proof.RegionFeat
import proofs.«110785_j15702400434467_1_alg».proof.Proof.RegionMain
import proofs.«110785_j15702400434467_1_alg».proof.Proof.LibLayoutAt
import proofs.«110785_j15702400434467_1_alg».proof.Proof.Spec
import Idealize.ShloMosaic.Lib.StableHlo.Run
import Idealize.ShloMosaic.PureOps.Ideal

set_option maxRecDepth 16384

noncomputable section

namespace Cert.KernelIdeal.ResultValue

open Cert.KernelIdeal Cert.KernelIdeal.Gen Idealize.ShloMosaic Idealize.ShloMosaic.TcCoe Idealize.SL.Sem
open Idealize.ShloMosaic.StableHlo Idealize.ShloMosaic.ValueIdx Cert.Spec Cert.Lib.LayoutAt

variable (m : (ℓ : Loc nD τ sig) → Buf (Elt Ideal) ℓ) (ρ : Dev nD → PrngReg)

/-! ## The boundaries' contents, buffer by buffer -/

/-- After the last stretch the result buffer is the second call's result with a unit axis in the middle. -/
theorem tail_eq (c : Dev nD) : W4 m ρ c (Proc.devRef .tc main_v6)
    = broadcastInDim S8192x1x1024 ![0, 2] bcast_S8192x1024_S8192x1x1024_0_2 (W3 m ρ c (Proc.devRef .tc main_v5)) := by
  show StableHlo.after hostOps2 (W3 m ρ c) (Proc.devRef .tc main_v6) = _
  after_results

/-- The second call is entered with the entity features as launched … -/
theorem mid_arg0 (c : Dev nD) : V2 m ρ c main_arg0 = m ((c : Thread nD τ).loc main_arg0) := by
  show StableHlo.after hostOps1 (W1 m ρ c) (Proc.devRef .tc main_arg0) = _
  after_results
  exact W1_of_ne m ρ c main_arg0 (by decide)

/-- … the mask as launched … -/
theorem mid_arg5 (c : Dev nD) : V2 m ρ c main_arg5 = m ((c : Thread nD τ).loc main_arg5) := by
  show StableHlo.after hostOps1 (W1 m ρ c) (Proc.devRef .tc main_arg5) = _
  after_results
  exact W1_of_ne m ρ c main_arg5 (by decide)

/-- … the first call's first result: the transformed feature matrix of the arguments … -/
theorem mid_v0_0 (c : Dev nD) : V2 m ρ c main_v0_0
    = FeatRegion.featArr (m ((c : Thread nD τ).loc main_arg1)) (m ((c : Thread nD τ).loc main_arg2)) (m ((c : Thread nD τ).loc main_arg3)) := by
  show StableHlo.after hostOps1 (W1 m ρ c) (Proc.devRef .tc main_v0_0) = _
  after_results
  exact (W1_arr m ρ c 3).trans (FeatRegion.final3 (V0 m ρ) c)

/-- … its second result: the transpose … -/
theorem mid_v0_1 (c : Dev nD) : V2 m ρ c main_v0_1
    = FeatRegion.featArrT (m ((c : Thread nD τ).loc main_arg1)) (m ((c : Thread nD τ).loc main_arg2)) (m ((c : Thread nD τ).loc main_arg3)) := by
  show StableHlo.after hostOps1 (W1 m ρ c) (Proc.devRef .tc main_v0_1) = _
  after_results
  exact (W1_arr m ρ c 4).trans (FeatRegion.final4 (V0 m ρ) c)

/-- … the upper half of the reduction matrix … -/
theorem mid_v2 (c : Dev nD) : V2 m ρ c main_v2
    = truncf (F := Ideal) .bf16 (extractStridedSlice S512x512 ![0, 0] (m ((c : Thread nD τ).loc main_arg4)) slices_S1024x512_S512x512_0_0) bitsLt_bf16_f32 := by
  show StableHlo.after hostOps1 (W1 m ρ c) (Proc.devRef .tc main_v2) = _
  after_results
  rw [W1_of_ne m ρ c main_arg4 (by decide)]

/-- … and its lower half. -/
theorem mid_v4 (c : Dev nD) : V2 m ρ c main_v4
    = truncf (F := Ideal) .bf16 (extractStridedSlice S512x512 ![512, 0] (m ((c : Thread nD τ).loc main_arg4)) slices_S1024x512_S512x512_512_0) bitsLt_bf16_f32 := by
  show StableHlo.after hostOps1 (W1 m ρ c) (Proc.devRef .tc main_v4) = _
  after_results
  rw [W1_of_ne m ρ c main_arg4 (by decide)]

/-! ## The result -/

/-- The kernel program's result buffer after the run is `Spec.result` of the argument arrays as launched. -/
theorem result_eq (c : Dev nD) : W4 m ρ c (Proc.devRef .tc main_v6)
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  rw [tail_eq, show W3 m ρ c (Proc.devRef .tc main_v5) = (dat1 (V2 m ρ) c).arrAt 6 cfg1.N from W3_arr m ρ c 6,
    MainRegion.final6 (V2 m ρ) c, mid_arg0, mid_arg5, mid_v0_0, mid_v0_1, mid_v2, mid_v4]
  funext i
  obtain ⟨n, z, cc, rfl⟩ : ∃ (n : Fin 8192) (z : Fin 1) (cc : Fin 1024), i = ix3 n z cc := ⟨i 0, i 1, i 2, eq_ix3 i⟩
  refine (midUnit_at (N := 8192) (C := 1024) (by decide) (by decide) _ bcast_S8192x1024_S8192x1x1024_0_2 n z cc).trans ?_
  unfold MainRegion.outArr result
  have etop : (fun (k : Fin 512) (j : Fin 512) => truncf (F := Ideal) .bf16 (extractStridedSlice S512x512 ![0, 0]
      (m ((c : Thread nD τ).loc main_arg4)) slices_S1024x512_S512x512_0_0) bitsLt_bf16_f32 (ix2 k j))
      = fun k j => m ((c : Thread nD τ).loc main_arg4) (ix2 ⟨k.val, by have := k.isLt; omega⟩ j) :=
    funext fun k => funext fun j => by
      refine (rowBand_at (R' := 1024) (R := 512) (C := 512) (k := 0) (m ((c : Thread nD τ).loc main_arg4))
        slices_S1024x512_S512x512_0_0 k j (by have := k.isLt; omega)).trans ?_
      refine congrArg (m ((c : Thread nD τ).loc main_arg4)) (congrArg (fun a => ix2 a j) (Fin.ext ?_))
      show 0 + k.val = k.val; omega
  have ebot : (fun (k : Fin 512) (j : Fin 512) => truncf (F := Ideal) .bf16 (extractStridedSlice S512x512 ![512, 0]
      (m ((c : Thread nD τ).loc main_arg4)) slices_S1024x512_S512x512_512_0) bitsLt_bf16_f32 (ix2 k j))
      = fun k j => m ((c : Thread nD τ).loc main_arg4) (ix2 ⟨512 + k.val, by have := k.isLt; omega⟩ j) :=
    funext fun k => funext fun j =>
      rowBand_at (R' := 1024) (R := 512) (C := 512) (k := 512) (m ((c : Thread nD τ).loc main_arg4))
        slices_S1024x512_S512x512_512_0 k j (by have := k.isLt; omega)
  rw [etop, ebot]
  rfl

end Cert.KernelIdeal.ResultValue

end
-- ==== Proof.RefIsSpec.lean ====
/- The reference's result, operation by operation, is the row-by-row function of `Spec.lean`.

   Its two leading products give the transformed feature matrix entry by entry; the comparison with zero turned into a
   number and multiplied into the scores is the selection between the score and zero (`Spec.mul_maskBit`); the product
   of the joined matrix [x | contribution] with the reduction matrix splits, over its 1024 contracted positions, into
   x times the upper half plus the contribution times the lower half (`Spec.sum_halves`). -/
import proofs.«110785_j15702400434467_1_alg».proof.Proof.Gen.ReferenceIdeal.Read
import proofs.«110785_j15702400434467_1_alg».proof.Proof.Spec
import proofs.«110785_j15702400434467_1_alg».proof.Proof.LibLayoutAt

noncomputable section

namespace Cert.ReferenceIdeal.RefSpec

open Cert.ReferenceIdeal Cert.ReferenceIdeal.Gen Cert.ReferenceIdeal.Read
open Idealize.ShloMosaic Idealize.ShloMosaic.ValueIdx Cert.Spec Cert.Lib.LayoutAt

/-! ## The operand indices of the five products, by coordinates -/

theorem l0 (p : Fin 4096) (q : Fin 256) (k : Fin 512) : lidx_main_v0 (ix2 p q) k = ix2 p k :=
  funext fun a => match a with | ⟨0, _⟩ => rfl | ⟨1, _⟩ => rfl
theorem r0 (p : Fin 4096) (q : Fin 256) (k : Fin 512) : ridx_main_v0 (ix2 p q) k = ix2 k q :=
  funext fun a => match a with | ⟨0, _⟩ => rfl | ⟨1, _⟩ => rfl
theorem l1 (p : Fin 4096) (q : Fin 512) (k : Fin 256) : lidx_main_v1 (ix2 p q) k = ix2 p k :=
  funext fun a => match a with | ⟨0, _⟩ => rfl | ⟨1, _⟩ => rfl
theorem r1 (p : Fin 4096) (q : Fin 512) (k : Fin 256) : ridx_main_v1 (ix2 p q) k = ix2 k q :=
  funext fun a => match a with | ⟨0, _⟩ => rfl | ⟨1, _⟩ => rfl
theorem l5 (p : Fin 8192) (q : Fin 4096) (k : Fin 512) : lidx_main_v5 (ix2 p q) k = ix2 p k :=
  funext fun a => match a with | ⟨0, _⟩ => rfl | ⟨1, _⟩ => rfl
theorem r5 (p : Fin 8192) (q : Fin 4096) (k : Fin 512) : ridx_main_v5 (ix2 p q) k = ix2 q k :=
  funext fun a => match a with | ⟨0, _⟩ => rfl | ⟨1, _⟩ => rfl
theorem l7 (p : Fin 8192) (q : Fin 512) (k : Fin 4096) : lidx_main_v7 (ix2 p q) k = ix2 p k :=
  funext fun a => match a with | ⟨0, _⟩ => rfl | ⟨1, _⟩ => rfl
theorem r7 (p : Fin 8192) (q : Fin 512) (k : Fin 4096) : ridx_main_v7 (ix2 p q) k = ix2 k q :=
  funext fun a => match a with | ⟨0, _⟩ => rfl | ⟨1, _⟩ => rfl
theorem l10 (p : Fin 8192) (q : Fin 512) (k : Fin 1024) : lidx_main_v10 (ix2 p q) k = ix2 p k :=
  funext fun a => match a with | ⟨0, _⟩ => rfl | ⟨1, _⟩ => rfl
theorem r10 (p : Fin 8192) (q : Fin 512) (k : Fin 1024) : ridx_main_v10 (ix2 p q) k = ix2 k q :=
  funext fun a => match a with | ⟨0, _⟩ => rfl | ⟨1, _⟩ => rfl

variable (x0 : (⟨S8192x512, .f32⟩ : BufTy).Contents (Elt Ideal)) (x1 : (⟨S4096x512, .f32⟩ : BufTy).Contents (Elt Ideal))
  (x2 : (⟨S512x256, .f32⟩ : BufTy).Contents (Elt Ideal)) (x3 : (⟨S256x512, .f32⟩ : BufTy).Contents (Elt Ideal))
  (x4 : (⟨S1024x512, .f32⟩ : BufTy).Contents (Elt Ideal)) (x5 : (⟨S8192x4096, .i32⟩ : BufTy).Contents (Elt Ideal))

/-! ## The stages, each read at an entry -/

/-- The second product is the transformed feature matrix. -/
theorem feat_at (d : Fin 4096) (j : Fin 512) : val_main_v1 (F := Ideal) x1 x2 x3 (ix2 d j) = feat x1 x2 x3 d j := by
  rw [val_main_v1_apply]
  unfold feat
  refine Finset.sum_congr rfl fun b _ => ?_
  rw [val_main_v0_apply, l1, r1]
  refine congrArg (· * x3 (ix2 b j)) (Finset.sum_congr rfl fun a _ => ?_)
  rw [l0, r0]

/-- The scores times the mask turned into numbers are the masked scores. -/
theorem score_at (n : Fin 8192) (d : Fin 4096) :
    val_main_v6 (F := Ideal) x0 x1 x2 x3 x5 (ix2 n d)
      = score (fun k => x0 (ix2 n k)) (fun d => x5 (ix2 n d)) (fun k d => feat x1 x2 x3 d k) d := by
  rw [val_main_v6_apply, val_main_v5_apply, val_main_v4_apply, val_main_v3_apply, val_main_v2_apply, val_main_c_apply]
  unfold score
  simp only [l5, r5, feat_at]
  exact mul_maskBit _ _

/-- The masked scores times the feature matrix: the contribution. -/
theorem contrib_at (n : Fin 8192) (j : Fin 512) :
    val_main_v7 (F := Ideal) x0 x1 x2 x3 x5 (ix2 n j)
      = contrib (fun k => x0 (ix2 n k)) (fun d => x5 (ix2 n d)) (feat x1 x2 x3) (fun k d => feat x1 x2 x3 d k) j := by
  rw [val_main_v7_apply]
  unfold contrib
  refine Finset.sum_congr rfl fun d _ => ?_
  rw [l7, r7, score_at, feat_at]

/-- The joined matrix [x | contribution], read in its left half and in its right half. -/
theorem joined_left (n : Fin 8192) (k : Fin 512) :
    val_main_v9 (F := Ideal) x0 x1 x2 x3 x5 (ix2 n ⟨k.val, by have := k.isLt; omega⟩) = x0 (ix2 n k) := by
  unfold val_main_v9
  exact sideBySide_left (N := 8192) (A := 512) (B := 512) (W := 1024) x0 _ concatenates_S8192x512_S8192x512_S8192x1024_d1 n _ k.isLt

theorem joined_right (n : Fin 8192) (k : Fin 512) :
    val_main_v9 (F := Ideal) x0 x1 x2 x3 x5 (ix2 n ⟨512 + k.val, by have := k.isLt; omega⟩)
      = val_main_v7 (F := Ideal) x0 x1 x2 x3 x5 (ix2 n k) := by
  unfold val_main_v9
  refine (sideBySide_right (N := 8192) (A := 512) (B := 512) (W := 1024) x0 _ concatenates_S8192x512_S8192x512_S8192x1024_d1 n
    ⟨512 + k.val, by have := k.isLt; omega⟩ (by show 512 ≤ 512 + k.val; omega) (by show 512 + k.val - 512 < 512; have := k.isLt; omega)).trans ?_
  refine congrArg _ (congrArg (ix2 n) (Fin.ext ?_))
  show 512 + k.val - 512 = k.val
  omega

/-- The product of the joined matrix with the reduction matrix: x times its upper half plus the contribution times its
    lower half. -/
theorem second_at (n : Fin 8192) (j : Fin 512) :
    val_main_v10 (F := Ideal) x0 x1 x2 x3 x4 x5 (ix2 n j)
      = (∑ k : Fin 512, x0 (ix2 n k) * x4 (ix2 ⟨k.val, by have := k.isLt; omega⟩ j))
        + ∑ k : Fin 512, contrib (fun k => x0 (ix2 n k)) (fun d => x5 (ix2 n d)) (feat x1 x2 x3) (fun k d => feat x1 x2 x3 d k) k
            * x4 (ix2 ⟨512 + k.val, by have := k.isLt; omega⟩ j) := by
  rw [val_main_v10_apply, sum_halves]
  simp only [l10, r10, joined_left, joined_right, contrib_at]

/-! ## The whole result -/

/-- The reference's result is `Spec.result` of the argument arrays. -/
theorem result_eq : val_main_v12 (F := Ideal) x0 x1 x2 x3 x4 x5 = result x0 x1 x2 x3 x4 x5 := by
  funext i
  obtain ⟨n, z, c, rfl⟩ : ∃ (n : Fin 8192) (z : Fin 1) (c : Fin 1024), i = ix3 n z c := ⟨i 0, i 1, i 2, eq_ix3 i⟩
  rw [val_main_v12_apply]
  have hi : idx_main_v12 (ix3 n z c) = ix2 n c := funext fun a => match a with | ⟨0, _⟩ => rfl | ⟨1, _⟩ => rfl
  rw [hi]
  unfold val_main_v11
  show _ = rowOut (fun k => x0 (ix2 n k)) (fun d => x5 (ix2 n d)) (feat x1 x2 x3) (fun k d => feat x1 x2 x3 d k)
    (fun k j => x4 (ix2 ⟨k.val, _⟩ j)) (fun k j => x4 (ix2 ⟨512 + k.val, _⟩ j)) c
  unfold rowOut
  by_cases hc : c.val < 512
  · rw [dif_pos hc]
    refine (sideBySide_left (N := 8192) (A := 512) (B := 512) (W := 1024) _ _ concatenates_S8192x512_S8192x512_S8192x1024_d1 n c hc).trans ?_
    rw [val_main_v8_apply, contrib_at]
    rfl
  · rw [dif_neg hc]
    refine (sideBySide_right (N := 8192) (A := 512) (B := 512) (W := 1024) _ _ concatenates_S8192x512_S8192x512_S8192x1024_d1 n c
      (by omega) (by have := c.isLt; omega)).trans ?_
    rw [second_at]

end Cert.ReferenceIdeal.RefSpec

end
-- ==== Proof.lean ====
/- The certificate's five claims.

   Both idealized programs compute, on the extended reals, one function of the six argument arrays — `Spec.result`: with
   H = (F · W₁) · W₂, row n of the result is x_n + c_n followed by x_n · top + c_n · bot, where c_n is the contribution
   (the scores ⟨x_n, H_d⟩, kept where the mask word is not zero and zero elsewhere, times H) and top, bot are the two
   halves of the reduction matrix. The kernel program reaches it through two pallas_calls (`KernelValue.lean`, over the
   regions' values in `RegionFeat.lean` and `RegionMain.lean`), the reference through fourteen host operations
   (`RefIsSpec.lean`). The kernel selects where the reference multiplies by the mask read as 0 or 1, and splits into two
   products what the reference contracts over 1024 joined positions; neither needs the inputs to be finite. The three
   frames are the generated ones, and the ideal pass rewrote nothing. -/
import proofs.«110785_j15702400434467_1_alg».proof.Defs
import proofs.«110785_j15702400434467_1_alg».proof.Proof.Gen.Kernel
import proofs.«110785_j15702400434467_1_alg».proof.Proof.Gen.Kernel.Skeleton
import proofs.«110785_j15702400434467_1_alg».proof.Proof.Gen.Kernel.Launch
import proofs.«110785_j15702400434467_1_alg».proof.Proof.Gen.Kernel.Points
import proofs.«110785_j15702400434467_1_alg».proof.Proof.Gen.Kernel.Frame
import proofs.«110785_j15702400434467_1_alg».proof.Proof.Gen.KernelIdeal
import proofs.«110785_j15702400434467_1_alg».proof.Proof.Gen.KernelIdeal.Skeleton
import proofs.«110785_j15702400434467_1_alg».proof.Proof.Gen.KernelIdeal.Launch
import proofs.«110785_j15702400434467_1_alg».proof.Proof.Gen.KernelIdeal.Points
import proofs.«110785_j15702400434467_1_alg».proof.Proof.Gen.KernelIdeal.Frame
import proofs.«110785_j15702400434467_1_alg».proof.Proof.Gen.ReferenceIdeal
import proofs.«110785_j15702400434467_1_alg».proof.Proof.Gen.Pre_finite_inputs
import proofs.«110785_j15702400434467_1_alg».proof.Proof.Gen.ReferenceIdeal.Run
import proofs.«110785_j15702400434467_1_alg».proof.Proof.Gen.ReferenceIdeal.Read
import proofs.«110785_j15702400434467_1_alg».proof.Proof.KernelRun
import proofs.«110785_j15702400434467_1_alg».proof.Proof.KernelValue
import proofs.«110785_j15702400434467_1_alg».proof.Proof.RefIsSpec
import Idealize.ShloMosaic.Adequacy
import Idealize.ShloMosaic.Init

noncomputable section

namespace Cert.Proof

open Idealize.ShloMosaic Idealize.SL.Sem

/-- The kernel program as printed runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with `Spec.result` of the arguments in their result
    buffers: the kernel program by its run read back through the regions, the reference by its run read operation by
    operation. -/
theorem algebraic : Cert.algebraic_KernelIdeal_ReferenceIdeal := by
  intro m ρ m' ρ' _ hagree
  refine ⟨fun c => Cert.Spec.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.ResultValue.result_eq m ρ c), (h c).2⟩)
      (Cert.KernelIdeal.RunV.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v12_eq, Cert.ReferenceIdeal.RefSpec.result_eq,
      (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
